-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4x2048x4096 .f32) (main_arg1 : FVec F S4096x4096 .f32) (main_arg2 : IVec S4096x4096 1) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4x2048x4096 : Shape := ⟨3, ![4, 2048, 4096]⟩
abbrev S4096x4096 : Shape := ⟨2, ![4096, 4096]⟩
abbrev S8192x4096 : Shape := ⟨2, ![8192, 4096]⟩
abbrev S512x512 : Shape := ⟨2, ![512, 512]⟩
abbrev S1024x512 : Shape := ⟨2, ![1024, 512]⟩
abbrev S512x1024 : Shape := ⟨2, ![512, 1024]⟩

abbrev nBuf : Space → Nat
  | .hbm => 7
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x4096, .i1⟩
  | .hbm, ⟨3, _⟩ => ⟨S8192x4096, .f32⟩
  | .hbm, ⟨4, _⟩ => ⟨S4096x4096, .i32⟩
  | .hbm, ⟨5, _⟩ => ⟨S8192x4096, .f32⟩
  | .hbm, ⟨6, _⟩ => ⟨S4x2048x4096, .f32⟩
  | .local _ .vmem, ⟨0, _⟩ => ⟨S512x512, .f32⟩
  | .local _ .vmem, ⟨1, _⟩ => ⟨S512x512, .f32⟩
  | .local _ .vmem, ⟨2, _⟩ => ⟨S1024x512, .f32⟩
  | .local _ .vmem, ⟨3, _⟩ => ⟨S1024x512, .f32⟩
  | .local _ .vmem, ⟨4, _⟩ => ⟨S1024x512, .i32⟩
  | .local _ .vmem, ⟨5, _⟩ => ⟨S1024x512, .i32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 8], ![false, false, false]⟩

def k0_cond2 (i : grid0.Coords) : BitVec 1 :=
  let arg2 : BitVec 32 := BitVec.ofNat 32 (i 2).val
  let c7_i32 : BitVec 32 := 7#32
  let v20 : BitVec 1 := Scalar.cmpi .eq arg2 c7_i32
  let v21 : BitVec 32 := Scalar.extui v20
  let c0_i32_11 : BitVec 32 := 0#32
  let v22 : BitVec 1 := Scalar.cmpi .ne v21 c0_i32_11
  v22

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x2048x4096_S8192x4096 : S4x2048x4096.ShapeCasts S8192x4096
  natLt_1_32 : 1 < 32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  transposes_S1024x512_p1_0_S512x1024 : S1024x512.Transposes [1, 0] S512x1024
  shapeCasts_S8192x4096_S4x2048x4096 : S8192x4096.ShapeCasts S4x2048x4096
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x4096.size a
  hwx0_0 : ∀ i : grid0.Coords, EltTy.bits .f32 = 32 ∨ (Rect.block (s := S8192x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x4096.size a
  hwx0_2 : ∀ i : grid0.Coords, EltTy.bits .i32 = 32 ∨ (Rect.block (s := S4096x4096) S1024x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x4096.size a
  hwx0_3 : ∀ i : grid0.Coords, EltTy.bits .f32 = 32 ∨ (Rect.block (s := S8192x4096) S512x1024.size (cc0_transform_3 i) (hinb0_3 i)).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x4096, .i1⟩
  | .hbm, ⟨3, _⟩ => ⟨S4096x4096, .f32⟩
  | .hbm, ⟨4, _⟩ => ⟨S4096x4096, .f32⟩
  | .hbm, ⟨5, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Pieces.lean ====
/-
  What one run of the kernel body leaves behind, read back as values.

  The body keeps a running [512, 1024] accumulator in a scratch buffer. At the first step of a
  reduction it stores the zero block and then adds that step's product onto it; at every later step it
  adds the step's product onto what the step before left; at the last step it also copies the
  accumulator into the output block. Each of these is one whole-block store, so what the scratch (and,
  at the last step, the output block) holds afterwards is that store's value: the accumulate expression
  of the three input blocks and of the accumulator the step started from.
-/
import proofs.«127321_j66005057405275_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Steps

open Cert.KernelIdeal Cert.KernelIdeal.Gen

variable {F : FTy → Type} [FloatOps F]

/-- The origin of a rank-2 block, as the constant-zero offset. -/
theorem origin2 : (![0, 0] : Fin 2 → Nat) = fun _ => 0 := funext fun a => by fin_cases a <;> rfl

/-- A later step of a reduction (neither first nor last): the scratch ends at the accumulate expression of the
    input blocks over the accumulator `acc` the step found. -/
theorem scratch_mid (c : Dev nD) (i : grid0.Coords) (a3 : Memref sig .tc .vmem S512x512 .f32) (h3 : a3.IsWhole) (a4 : Memref sig .tc .vmem S1024x512 .f32) (h4 : a4.IsWhole) (a5 : Memref sig .tc .vmem S1024x512 .i32) (h5 : a5.IsWhole) (a6 : Memref sig .tc .vmem S512x1024 .f32) (h6 : a6.IsWhole) (a7 : Memref sig .tc .vmem S512x1024 .f32) (h7 : a7.IsWhole) (hc0 : ¬cond0_0 i) (hc1 : ¬cond0_1 i)
    (x0 : Vec F S512x512 .f32) (x1 : Vec F S1024x512 .f32) (x2 : Vec F S1024x512 .i32) (acc : Vec F S512x1024 .f32) :
    sout0_B_0 c i a3 h3 a4 h4 a5 h5 a6 h6 a7 h7 hc0 hc1 x0 x1 x2 acc = k0_pay2 x0 x1 x2 acc := by
  unfold sout0_B_0
  rw [View.read_writes_eq_canon _ _ _ (scover0_B_0 c i a3 h3 a4 h4 a5 h5 a6 h6 a7 h7 hc0 hc1 x0 x1 x2 acc)]
  unfold kernelRun0_B
  dsimp only
  sl_unfold_words
  rw [View.canon_unit_zero origin2]
  simp only [View.readAt_eq_ld, h3.read_unread, h4.read_unread, h5.read_unread, h7.read_unread,
    View.ld_unit_zero (S := S512x512) origin2, View.ld_unit_zero (S := S1024x512) origin2, View.ld_unit_zero (S := S512x1024) origin2]

/-- The last step of a reduction: the scratch ends at the same accumulate expression … -/
theorem scratch_last (c : Dev nD) (i : grid0.Coords) (a3 : Memref sig .tc .vmem S512x512 .f32) (h3 : a3.IsWhole) (a4 : Memref sig .tc .vmem S1024x512 .f32) (h4 : a4.IsWhole) (a5 : Memref sig .tc .vmem S1024x512 .i32) (h5 : a5.IsWhole) (a6 : Memref sig .tc .vmem S512x1024 .f32) (h6 : a6.IsWhole) (a7 : Memref sig .tc .vmem S512x1024 .f32) (h7 : a7.IsWhole) (hc0 : ¬cond0_0 i) (hc1 : cond0_1 i)
    (x0 : Vec F S512x512 .f32) (x1 : Vec F S1024x512 .f32) (x2 : Vec F S1024x512 .i32) (acc : Vec F S512x1024 .f32) :
    sout0_C_0 c i a3 h3 a4 h4 a5 h5 a6 h6 a7 h7 hc0 hc1 x0 x1 x2 acc = k0_pay2 x0 x1 x2 acc := by
  unfold sout0_C_0
  rw [View.read_writes_eq_canon _ _ _ (scover0_C_0 c i a3 h3 a4 h4 a5 h5 a6 h6 a7 h7 hc0 hc1 x0 x1 x2 acc)]
  unfold kernelRun0_C
  dsimp only
  sl_unfold_words
  rw [View.canon_unit_zero origin2]
  simp only [View.readAt_eq_ld, h3.read_unread, h4.read_unread, h5.read_unread, h7.read_unread,
    View.ld_unit_zero (S := S512x512) origin2, View.ld_unit_zero (S := S1024x512) origin2, View.ld_unit_zero (S := S512x1024) origin2]

/-- … and the output block is a copy of it. -/
theorem out_last (c : Dev nD) (i : grid0.Coords) (a3 : Memref sig .tc .vmem S512x512 .f32) (h3 : a3.IsWhole) (a4 : Memref sig .tc .vmem S1024x512 .f32) (h4 : a4.IsWhole) (a5 : Memref sig .tc .vmem S1024x512 .i32) (h5 : a5.IsWhole) (a6 : Memref sig .tc .vmem S512x1024 .f32) (h6 : a6.IsWhole) (a7 : Memref sig .tc .vmem S512x1024 .f32) (h7 : a7.IsWhole) (hc0 : ¬cond0_0 i) (hc1 : cond0_1 i)
    (x0 : Vec F S512x512 .f32) (x1 : Vec F S1024x512 .f32) (x2 : Vec F S1024x512 .i32) (acc : Vec F S512x1024 .f32) :
    out0_C_3 c i a3 h3 a4 h4 a5 h5 a6 h6 a7 h7 hc0 hc1 x0 x1 x2 acc = k0_pay2 x0 x1 x2 acc := by
  unfold out0_C_3
  rw [View.read_writes_eq_canon _ _ _ (cover0_C_3 c i a3 h3 a4 h4 a5 h5 a6 h6 a7 h7 hc0 hc1 x0 x1 x2 acc)]
  unfold kernelRun0_C
  dsimp only
  sl_unfold_words
  rw [View.canon_unit_zero origin2]
  simp only [View.readAt_eq_ld, h3.read_unread, h4.read_unread, h5.read_unread, h7.read_unread,
    View.ld_unit_zero (S := S512x512) origin2, View.ld_unit_zero (S := S1024x512) origin2, View.ld_unit_zero (S := S512x1024) origin2]
  rw [View.readCov_unit_zero (S := S512x1024) _ origin2]

/-- The first step of a reduction: the zero block is stored, read back, and the step's product added onto it. -/
theorem scratch_first (c : Dev nD) (i : grid0.Coords) (a3 : Memref sig .tc .vmem S512x512 .f32) (h3 : a3.IsWhole) (a4 : Memref sig .tc .vmem S1024x512 .f32) (h4 : a4.IsWhole) (a5 : Memref sig .tc .vmem S1024x512 .i32) (h5 : a5.IsWhole) (a6 : Memref sig .tc .vmem S512x1024 .f32) (h6 : a6.IsWhole) (a7 : Memref sig .tc .vmem S512x1024 .f32) (h7 : a7.IsWhole) (hc0 : cond0_0 i) (hc1 : ¬cond0_1 i)
    (x0 : Vec F S512x512 .f32) (x1 : Vec F S1024x512 .f32) (x2 : Vec F S1024x512 .i32) :
    sout0_A_0 c i a3 h3 a4 h4 a5 h5 a6 h6 a7 h7 hc0 hc1 x0 x1 x2 = k0_pay2 x0 x1 x2 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S512x1024) origin2, View.readCov_unit_zero (S := S512x1024) _ origin2]
  simp only [View.readAt_eq_ld, h3.read_unread, h4.read_unread, h5.read_unread, h7.read_unread,
    View.ld_unit_zero (S := S512x512) origin2, View.ld_unit_zero (S := S1024x512) origin2, View.ld_unit_zero (S := S512x1024) origin2]

end Cert.KernelIdeal.Steps

end
-- ==== Proof.LibContract.lean ====
import Idealize.ShloMosaic.PureOps.Ideal.Laws
import Idealize.ShloMosaic.Lib.ValueIdx

/-!
# The plain contraction `[M, K] × [K, N]` read at an entry, on the extended reals

`DotDims.plain M K N` has the fields of every printed `…_1_0_0_1_n_n` record of rank-2 operands (contract the left
operand's axis 1 with the right operand's axis 0, no batch axes). Over it the host's `dot_general` and a kernel's
`tpu.matmul` into the zero splat are both, at entry `(p, q)`, the sum over `k` of `a[p, k] · b[k, q]`.
-/

noncomputable section

namespace Cert.LibDense

open Idealize.ShloMosaic Idealize.ShloMosaic.ValueIdx

/-! ## The operand indices of the plain contraction, axis by axis

At result index `j` and contraction index `c` the left operand is read at `(j 0, c)` and the right one at `(c, j 1)`:
a kept axis reads the result index at its place, the contracted axis reads the one coordinate of `c`. -/

/-- The left operand's row is the result's row. -/
theorem plain_lhs_0 (M K N : Nat) (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction index's coordinate. -/
theorem plain_lhs_1 (M K N : Nat) (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row is the contraction index's coordinate. -/
theorem plain_rhs_0 (M K N : Nat) (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column is the result's column. -/
theorem plain_rhs_1 (M K N : Nat) (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index, re-indexed by its coordinate `k : Fin K` and with both operand
    indices read off: `∑ k, a[p, k] · b[k, q]`. -/
theorem plain_sum (M K N : Nat) {φ₁ φ₂ : FTy} (a : FVec Ideal (⟨2, ![M, K]⟩ : Shape) φ₁)
    (b : FVec Ideal (⟨2, ![K, N]⟩ : Shape) φ₂) (p : Fin M) (q : Fin N) :
    (∑ c : (DotDims.plain M K N).contr.Idx,
        a ((DotDims.plain M K N).lhsIdx (ix2 p q) c) * b ((DotDims.plain M K N).rhsIdx (ix2 p q) c))
      = ∑ k : Fin K, a (ix2 p k) * b (ix2 k q) := by
  rw [← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 p q) ((ValueIdx.contrEquiv1 (DotDims.plain M K N) K rfl rfl).symm k)
      = ix2 p k := funext fun x => Fin.ext (by
    match x with
    | ⟨0, _⟩ => exact plain_lhs_0 M K N _ _
    | ⟨1, _⟩ => exact (plain_lhs_1 M K N _ _).trans hk)
  have er : (DotDims.plain M K N).rhsIdx (ix2 p q) ((ValueIdx.contrEquiv1 (DotDims.plain M K N) K rfl rfl).symm k)
      = ix2 k q := funext fun x => Fin.ext (by
    match x with
    | ⟨0, _⟩ => exact (plain_rhs_0 M K N _ _).trans hk
    | ⟨1, _⟩ => exact plain_rhs_1 M K N _ _)
  rw [el, er]

/-! ## The contraction read at an entry -/

/-- The host's `dot_general` over the plain contraction, at entry `(p, q)`: `∑ k, a[p, k] · b[k, q]`. -/
theorem dotGeneral_plain_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    Host.dotGeneral (DotDims.plain M K N) prec a b (ix2 p q) = ∑ k : Fin K, a (ix2 p k) * b (ix2 k q) := by
  simp only [Host.dotGeneral]
  rw [Ideal.dotGeneral_apply]
  exact plain_sum M K N a b p q

/-- A kernel's `tpu.matmul` over the plain contraction into the zero splat, at entry `(p, q)`: the same sum. -/
theorem matmul_plain_zero_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    matmul (DotDims.plain M K N) prec a b (constant (F := Ideal) (⟨2, ![M, N]⟩ : Shape) .f32 0x00000000#32) (ix2 p q)
      = ∑ k : Fin K, a (ix2 p k) * b (ix2 k q) := by
  simp only [matmul]
  rw [Ideal.matmul_constant_zero_apply]
  exact plain_sum M K N a b p q

end Cert.LibDense

end
-- ==== Proof.LibTiles.lean ====
/-
  Regrouping finite sums over index sets that are cut into tiles. A sum over a · b consecutive indices is
  the sum over the a tiles of the sums over the b indices of a tile; for 4096 = 4 · 1024 the outer sum,
  written out from a zero start, is ((((0 + S₀) + S₁) + S₂) + S₃). A sum over 8192 = 4096 + 4096
  indices is the sum over the lower half plus the sum over the upper half. A sum over the index set
  of an n × 1 array is the sum over its n rows.
-/
import Mathlib.Algebra.BigOperators.Fin
import Mathlib.Data.Fintype.BigOperators
import Mathlib.Logic.Equiv.Fin.Basic
import Idealize.ShloMosaic.Lib.ValueIdx

namespace Cert.LibTiles

open Idealize.ShloMosaic Idealize.ShloMosaic.ValueIdx

variable {M : Type*} [AddCommMonoid M]

/-! ## Tiles of equal length -/

/-- Index k of tile j, among a tiles of length b, lies below a · b: j · b + k < (j + 1) · b ≤ a · b. -/
theorem tile_lt {a b : ℕ} (j : Fin a) (k : Fin b) : j.val * b + k.val < a * b :=
  calc j.val * b + k.val < j.val * b + b := Nat.add_lt_add_left k.isLt _
    _ = (j.val + 1) * b := (Nat.succ_mul _ _).symm
    _ ≤ a * b := Nat.mul_le_mul_right b j.isLt

/-- A sum over a · b indices is the sum over the a tiles of the sum over each tile's b indices:
    (j, k) ↦ j · b + k is a bijection from pairs onto the indices below a · b. -/
theorem tile_sum (a b : ℕ) (f : Fin (a * b) → M) :
    ∑ i : Fin (a * b), f i = ∑ j : Fin a, ∑ k : Fin b, f ⟨j.val * b + k.val, tile_lt j k⟩ := by
  rw [← Equiv.sum_comp finProdFinEquiv f, Fintype.sum_prod_type]
  refine Finset.sum_congr rfl fun j _ => Finset.sum_congr rfl fun k _ => ?_
  congr 1
  apply Fin.ext
  show k.val + b * j.val = j.val * b + k.val
  rw [Nat.mul_comm, Nat.add_comm]

/-! ## 4096 = 4 · 1024 -/

/-- Index q of tile j, among 4 tiles of length 1024, lies below 4096. -/
theorem tile_lt_4096 (j : Fin 4) (q : Fin 1024) : j.val * 1024 + q.val < 4096 :=
  tile_lt j q

/-- The same bound with the tile's number a natural number below 4. -/
theorem tile_lt_nat {j : ℕ} (hj : j < 4) (q : Fin 1024) : j * 1024 + q.val < 4096 :=
  tile_lt_4096 ⟨j, hj⟩ q

/-- A sum over 4096 indices is the sum over 4 tiles of the sums over each tile's 1024 indices. -/
theorem tile_sum_4096 (f : Fin 4096 → M) :
    ∑ c : Fin 4096, f c =
      ∑ j : Fin 4, ∑ q : Fin 1024, f ⟨j.val * 1024 + q.val, tile_lt_4096 j q⟩ :=
  tile_sum 4 1024 f

/-- With S j the sum over tile j, the sum over 4096 indices is the four tile sums added one after the
    other onto zero. -/
theorem tile_sum_4096_of (f : Fin 4096 → M) (S : Fin 4 → M)
    (hS : ∀ j : Fin 4, S j = ∑ q : Fin 1024, f ⟨j.val * 1024 + q.val, tile_lt_4096 j q⟩) :
    ∑ c : Fin 4096, f c = (((0 + S 0) + S 1) + S 2) + S 3 := by
  rw [tile_sum_4096, Fin.sum_univ_four, zero_add, hS 0, hS 1, hS 2, hS 3]

/-- The same with the tile sums written out, the tile's number a numeral. -/
theorem tile_sum_4096_acc (f : Fin 4096 → M) :
    ∑ c : Fin 4096, f c =
      (((0 + ∑ q : Fin 1024, f ⟨0 * 1024 + q.val, tile_lt_nat (by decide) q⟩)
          + ∑ q : Fin 1024, f ⟨1 * 1024 + q.val, tile_lt_nat (by decide) q⟩)
          + ∑ q : Fin 1024, f ⟨2 * 1024 + q.val, tile_lt_nat (by decide) q⟩)
          + ∑ q : Fin 1024, f ⟨3 * 1024 + q.val, tile_lt_nat (by decide) q⟩ := by
  rw [tile_sum_4096, Fin.sum_univ_four, zero_add]
  rfl

/-! ## 8192 = 4096 + 4096 -/

/-- An index of the lower half lies below 8192. -/
theorem lo_lt (r : Fin 4096) : r.val < 8192 := lt_trans r.isLt (by decide)

/-- An index of the upper half lies below 8192. -/
theorem hi_lt (r : Fin 4096) : 4096 + r.val < 8192 := Nat.add_lt_add_left r.isLt 4096

/-- A sum over 8192 indices is the sum over the lower 4096 plus the sum over the upper 4096. -/
theorem sum_halves (f : Fin 8192 → M) :
    ∑ i : Fin 8192, f i =
      (∑ r : Fin 4096, f ⟨r.val, lo_lt r⟩) + ∑ r : Fin 4096, f ⟨4096 + r.val, hi_lt r⟩ :=
  Fin.sum_univ_add (a := 4096) (b := 4096) f

/-- If f is g on the lower half and h on the upper half, the sum of f is the sum of g plus the sum of h. -/
theorem sum_halves_of (f : Fin 8192 → M) (g h : Fin 4096 → M)
    (hg : ∀ r : Fin 4096, f ⟨r.val, lo_lt r⟩ = g r)
    (hh : ∀ r : Fin 4096, f ⟨4096 + r.val, hi_lt r⟩ = h r) :
    ∑ i : Fin 8192, f i = (∑ r : Fin 4096, g r) + ∑ r : Fin 4096, h r := by
  rw [sum_halves]
  congr 1
  · exact Finset.sum_congr rfl fun r _ => hg r
  · exact Finset.sum_congr rfl fun r _ => hh r

/-- The lower half alone: where f vanishes on the upper half, its sum is the sum over the lower half. -/
theorem sum_lo_of_hi_zero (f : Fin 8192 → M) (hz : ∀ r : Fin 4096, f ⟨4096 + r.val, hi_lt r⟩ = 0) :
    ∑ i : Fin 8192, f i = ∑ r : Fin 4096, f ⟨r.val, lo_lt r⟩ := by
  rw [sum_halves, Finset.sum_eq_zero (fun r _ => hz r), add_zero]

/-- The upper half alone: where f vanishes on the lower half, its sum is the sum over the upper half. -/
theorem sum_hi_of_lo_zero (f : Fin 8192 → M) (hz : ∀ r : Fin 4096, f ⟨r.val, lo_lt r⟩ = 0) :
    ∑ i : Fin 8192, f i = ∑ r : Fin 4096, f ⟨4096 + r.val, hi_lt r⟩ := by
  rw [sum_halves, Finset.sum_eq_zero (fun r _ => hz r), zero_add]

/-! ## One column -/

/-- A sum over the index set of an n × 1 array is the sum over its rows: the column coordinate has the
    one value 0. -/
theorem one_col {n : ℕ} (g : (⟨2, ![n, 1]⟩ : Shape).Idx → M) :
    ∑ i : (⟨2, ![n, 1]⟩ : Shape).Idx, g i = ∑ r : Fin n, g (ix2 r 0) := by
  rw [sum_idx2]
  exact Finset.sum_congr rfl fun r _ => Fin.sum_univ_one _

end Cert.LibTiles
-- ==== Proof.Spec.lean ====
/-
  The masked linear layer as one function of its three arguments, and the arithmetic that lets a
  K-tiled accumulation be compared with it.

  With x a [4, 2048, 4096] array, w a [4096, 4096] weight and msk a [4096, 4096] array of one-bit
  words, the layer is

      out[b, s, o] = ∑ k, x[b, s, k] · (w[o, k] · g(msk[o, k])),      g(bit) = 0 or 1.

  Read with x flattened to the [8192, 4096] matrix X (row r = 2048·b + s) and the mask widened to 32-bit
  words, the same number is  ∑ k, X[r, k] · (w[o, k] · g₃₂(M[o, k]))  with g₃₂(v) = 1 when v ≠ 0, else 0.
  A sum over the 4096 values of k taken tile by tile, eight tiles of 512, from a zero start, is the
  whole sum: extended-real addition is commutative and associative and 0 is its unit, so no finiteness
  is needed anywhere.
-/
import Mathlib.Algebra.BigOperators.Fin
import Idealize.ShloMosaic.PureOps.Ideal.Laws
import Idealize.ShloMosaic.Lib.ValueIdx
import Idealize.ShloMosaic.Lib.Pipeline.Value
import proofs.«127321_j66005057405275_1_alg».proof.Proof.LibTiles

noncomputable section

namespace Cert.MaskedLinear

open Idealize.ShloMosaic Idealize.ShloMosaic.ValueIdx

/-- x as given: [4, 2048, 4096]. -/
abbrev SX : Shape := ⟨3, ![4, 2048, 4096]⟩
/-- x flattened to a matrix: [8192, 4096]. -/
abbrev SRows : Shape := ⟨2, ![8192, 4096]⟩
/-- The weight's and the mask's shape: [4096, 4096]. -/
abbrev SW : Shape := ⟨2, ![4096, 4096]⟩

/-! ## The mask as a number -/

/-- A one-bit mask word as the number 0 or 1. -/
def gate1 (b : BitVec 1) : EReal := ((b.toNat : ℝ) : EReal)

/-- A 32-bit mask word as the number 0 or 1: "is not zero", widened and read as a signed integer. -/
def gate32 (v : BitVec 32) : EReal := ((((IntOp.cmpi .ne v 0#32).setWidth 32).toInt : ℝ) : EReal)

/-- Widening a one-bit word to 32 bits and testing it against zero gives the bit back. -/
theorem gate32_widen (b : BitVec 1) : gate32 (b.setWidth 32) = gate1 b := by
  unfold gate32 gate1
  rcases BitVec.eq_zero_or_eq_one b with rfl | rfl
  · have h : ((IntOp.cmpi .ne ((0#1 : BitVec 1).setWidth 32) 0#32).setWidth 32).toInt = 0 := by decide
    rw [h]; simp
  · have h : ((IntOp.cmpi .ne ((1#1 : BitVec 1).setWidth 32) 0#32).setWidth 32).toInt = 1 := by decide
    rw [h]; simp

/-! ## One product of the contraction, and sums of them by tiles -/

/-- The k-th product of output entry (r, o): X[r, k] · (w[o, k] · g₃₂(M[o, k])). -/
def term (X : FVec Ideal SRows .f32) (W : FVec Ideal SW .f32) (M : IVec SW 32) (r : Fin 8192) (o : Fin 4096)
    (k : Fin 4096) : EReal :=
  X (ix2 r k) * (W (ix2 o k) * gate32 (M (ix2 o k)))

/-- The same with k a natural number (zero past the end, which no tile reaches). -/
def termN (X : FVec Ideal SRows .f32) (W : FVec Ideal SW .f32) (M : IVec SW 32) (r : Fin 8192) (o : Fin 4096)
    (k : ℕ) : EReal :=
  if h : k < 4096 then term X W M r o ⟨k, h⟩ else 0

/-- The products of K-tile kb (512 consecutive values of k), summed. -/
def tileDot (X : FVec Ideal SRows .f32) (W : FVec Ideal SW .f32) (M : IVec SW 32) (r : Fin 8192) (o : Fin 4096)
    (kb : ℕ) : EReal :=
  ∑ kk : Fin 512, termN X W M r o (kb * 512 + kk.val)

/-- The first n K-tiles summed. -/
def partialDot (X : FVec Ideal SRows .f32) (W : FVec Ideal SW .f32) (M : IVec SW 32) (r : Fin 8192) (o : Fin 4096)
    (n : ℕ) : EReal :=
  ∑ kb ∈ Finset.range n, tileDot X W M r o kb

variable (X : FVec Ideal SRows .f32) (W : FVec Ideal SW .f32) (M : IVec SW 32) (r : Fin 8192) (o : Fin 4096)

/-- One tile from a zero start is the first partial sum. -/
theorem partialDot_one : partialDot X W M r o 1 = 0 + tileDot X W M r o 0 := by
  unfold partialDot
  rw [Finset.sum_range_one, zero_add]

/-- Adding tile n to the first n tiles gives the first n + 1. -/
theorem partialDot_succ (n : ℕ) : partialDot X W M r o (n + 1) = partialDot X W M r o n + tileDot X W M r o n := by
  unfold partialDot
  exact Finset.sum_range_succ _ n

/-- All eight tiles are the whole contraction. -/
theorem partialDot_eight : partialDot X W M r o 8 = ∑ k : Fin 4096, term X W M r o k := by
  unfold partialDot
  rw [← Fin.sum_univ_eq_sum_range (fun kb => tileDot X W M r o kb) 8]
  have h := Cert.LibTiles.tile_sum (M := EReal) 8 512 (term X W M r o)
  refine Eq.trans ?_ h.symm
  refine Finset.sum_congr rfl fun kb _ => ?_
  unfold tileDot
  refine Finset.sum_congr rfl fun kk _ => ?_
  unfold termN
  rw [dif_pos (Cert.LibTiles.tile_lt kb kk)]

/-! ## The layer on the flattened x, and on x as given -/

/-- The layer on the matrix X: entry (r, o) is the whole contraction. -/
def matOut : FVec Ideal SRows .f32 := fun j => ∑ k : Fin 4096, term X W M (j 0) (j 1) k

/-- The layer on x as given, the mask one-bit words. -/
def layer (x : FVec Ideal SX .f32) (w : FVec Ideal SW .f32) (msk : IVec SW 1) : FVec Ideal SX .f32 :=
  fun i => ∑ k : Fin 4096, x (ix3 (i 0) (i 1) k) * (w (ix2 (i 2) k) * gate1 (msk (ix2 (i 2) k)))

/-- Row r = 2048·b + s of the flattened x. -/
theorem row_lt (b : Fin 4) (s : Fin 2048) : b.val * 2048 + s.val < 8192 := by
  have := b.isLt; have := s.isLt; omega

/-- Flatten x, widen the mask, apply the layer on matrices, and fold the rows back to [4, 2048]: the layer. -/
theorem fold_matOut (x : FVec Ideal SX .f32) (w : FVec Ideal SW .f32) (msk : IVec SW 1)
    (hflat : SX.ShapeCasts SRows) (hfold : SRows.ShapeCasts SX) :
    shapeCast SX (matOut (shapeCast SRows x hflat) w (fun i => (msk i).setWidth 32)) hfold = layer x w msk := by
  funext i
  obtain ⟨b, s, q, rfl⟩ : ∃ (b : Fin 4) (s : Fin 2048) (q : Fin 4096), i = ix3 b s q := ⟨i 0, i 1, i 2, eq_ix3 i⟩
  rw [shapeCast_apply _ hfold (ix3 b s q) (ix2 (⟨b.val * 2048 + s.val, row_lt b s⟩ : Fin 8192) q)
    (by rw [Shape.rowMajor_val_two, Shape.rowMajor_val_three]; rfl)]
  unfold matOut layer term
  refine Finset.sum_congr rfl fun k _ => ?_
  rw [shapeCast_apply _ hflat (ix2 (⟨b.val * 2048 + s.val, row_lt b s⟩ : Fin 8192) k) (ix3 b s k)
    (by rw [Shape.rowMajor_val_two, Shape.rowMajor_val_three]; rfl)]
  rw [gate32_widen]

end Cert.MaskedLinear

end
-- ==== Proof.Payload.lean ====
/-
  The body's two stored values, entry by entry, on the extended reals.

  The reset value is the zero block. The accumulate value at entry (p, q) of the [512, 1024] block is

      acc[p, q] + ∑ k < 512, xb[p, k] · (wb[q, k] · g₃₂(mb[q, k]))

  where xb is the [512, 512] block of x, wb the [1024, 512] block of the weight and mb the same block of
  the widened mask: the narrowing to bf16 is the identity on extended reals, the product with the 0/1 mask
  is taken entry by entry, the transposed block is read at the swapped entry, and the matrix product into the
  zero block is the plain sum over the contracted axis.
-/
import proofs.«127321_j66005057405275_1_alg».proof.Proof.Gen.KernelIdeal.Skeleton
import proofs.«127321_j66005057405275_1_alg».proof.Proof.LibContract
import proofs.«127321_j66005057405275_1_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Steps

open Cert.KernelIdeal Cert.KernelIdeal.Gen Cert.MaskedLinear

/-- The body's matrix product contracts the left block's columns with the right block's rows: the plain
    [512, 512] × [512, 1024] contraction. -/
theorem dot_plain : dot_S512x512_S512x1024_S512x1024_1_0_0_1_n_n = DotDims.plain 512 512 1024 := rfl

/-- The matrix product into the zero block at entry (p, q): the sum over the contracted axis. -/
theorem product_apply {φ₁ φ₂ : FTy} (a : FVec Ideal S512x512 φ₁) (b : FVec Ideal S512x1024 φ₂) (p : Fin 512) (q : Fin 1024) :
    matmul dot_S512x512_S512x1024_S512x1024_1_0_0_1_n_n none a b (constant (F := Ideal) S512x1024 .f32 0x00000000#32) (ix2 p q)
      = ∑ k : Fin 512, a (ix2 p k) * b (ix2 k q) := by
  rw [dot_plain]
  exact Cert.LibDense.matmul_plain_zero_apply 512 512 1024 none a b p q

/-- The transposed [1024, 512] block at entry (k, q) is the block at (q, k). -/
theorem swap_apply {α : Type} (v : S1024x512.Idx → α) (h : S1024x512.Transposes [1, 0] S512x1024) (k : Fin 512) (q : Fin 1024) :
    transpose S512x1024 [1, 0] v h (ix2 k q) = v (ix2 q k) :=
  transpose_apply [1, 0] v h (ix2 k q) (ix2 q k) (fun b => by
    match b with
    | ⟨0, _⟩ => rfl
    | ⟨1, _⟩ => rfl)

/-- The reset value is zero at every entry. -/
theorem reset_apply (j : S512x1024.Idx) : k0_pay1 (F := Ideal) j = 0 := by
  unfold k0_pay1
  rw [shapeCast_self]
  exact Ideal.ofBits_zero_f32

/-- The accumulate value at entry (p, q). -/
theorem accumulate_apply (xb : Vec Ideal S512x512 .f32) (wb : Vec Ideal S1024x512 .f32) (mb : Vec Ideal S1024x512 .i32)
    (acc : Vec Ideal S512x1024 .f32) (p : Fin 512) (q : Fin 1024) :
    k0_pay2 xb wb mb acc (ix2 p q)
      = acc (ix2 p q) + ∑ k : Fin 512, xb (ix2 p k) * (wb (ix2 q k) * gate32 (mb (ix2 q k))) := by
  unfold k0_pay2
  simp only [shapeCast_self]
  rw [addf_apply, product_apply]
  refine congrArg (fun z => acc (ix2 p q) + z) (Finset.sum_congr rfl fun k _ => ?_)
  rw [truncf_apply, swap_apply]
  rfl

end Cert.KernelIdeal.Steps

end
-- ==== Proof.Blocks.lean ====
/-
  Where the kernel's blocks sit in its arrays.

  The grid has 16 · 4 · 8 = 512 points in row-major order. Point t works on output tile u = t / 8 (row
  tile u / 4 of 512 rows, column tile u % 4 of 1024 columns) at reduction step t % 8 (512 consecutive
  values of the contracted index). Its x block is rows of the row tile by the step's columns of the
  flattened x; its weight and mask blocks are rows of the column tile by the same columns; its output
  block is the row tile by the column tile. The arrays the kernel finds are the flattened x, the weight
  as given, and the mask widened from one-bit to 32-bit words.
-/
import proofs.«127321_j66005057405275_1_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tiles

open Cert.KernelIdeal Cert.KernelIdeal.Gen

/-! ## Tile coordinates -/

/-- Row p of the row tile of output tile u, as a row of the [8192, 4096] arrays. -/
def rowOf (u : ℕ) (p : Fin 512) : Fin 8192 :=
  ⟨(u / 4 % 16) * 512 + p.val, by have := p.isLt; have := Nat.mod_lt (u / 4) (by decide : 16 > 0); omega⟩

/-- Column q of the column tile of output tile u, as a row of the weight (an output feature). -/
def colOf (u : ℕ) (q : Fin 1024) : Fin 4096 :=
  ⟨(u % 4) * 1024 + q.val, by have := q.isLt; have := Nat.mod_lt u (by decide : 4 > 0); omega⟩

/-- Contracted index k of reduction step n % 8. -/
theorem depth_lt (n : ℕ) (k : Fin 512) : (n % 8) * 512 + k.val < 4096 := by
  have := k.isLt; have := Nat.mod_lt n (by decide : 8 > 0); omega

/-! ## The index maps, decided over the grid -/

theorem index_x : ∀ t : Fin cfg0.N, win0_0.index t 0 = t.val / 8 / 4 % 16 ∧ win0_0.index t 1 = t.val % 8 :=
  (by decide +kernel : ∀ t : Fin grid0.N, win0_0.index t 0 = t.val / 8 / 4 % 16 ∧ win0_0.index t 1 = t.val % 8)

theorem index_w : ∀ t : Fin cfg0.N, win0_1.index t 0 = t.val / 8 % 4 ∧ win0_1.index t 1 = t.val % 8 :=
  (by decide +kernel : ∀ t : Fin grid0.N, win0_1.index t 0 = t.val / 8 % 4 ∧ win0_1.index t 1 = t.val % 8)

theorem index_m : ∀ t : Fin cfg0.N, win0_2.index t 0 = t.val / 8 % 4 ∧ win0_2.index t 1 = t.val % 8 :=
  (by decide +kernel : ∀ t : Fin grid0.N, win0_2.index t 0 = t.val / 8 % 4 ∧ win0_2.index t 1 = t.val % 8)

theorem index_o : ∀ t : Fin cfg0.N, win0_3.index t 0 = t.val / 8 / 4 % 16 ∧ win0_3.index t 1 = t.val / 8 % 4 :=
  (by decide +kernel : ∀ t : Fin grid0.N, win0_3.index t 0 = t.val / 8 / 4 % 16 ∧ win0_3.index t 1 = t.val / 8 % 4)

variable {F : FTy → Type} [FloatOps F]
variable (m : (ℓ : Loc nD τ sig) → Buf (Elt F) ℓ)

/-! ## The arrays the kernel finds -/

/-- The flattened x. -/
theorem found_x (c : Dev nD) :
    V m c main_v0 = shapeCast S8192x4096 (m ((c : Thread nD τ).loc main_arg0)) shapeCasts_S4x2048x4096_S8192x4096 := by
  show StableHlo.after hostOps0 (fun b => m (c, b)) (Proc.devRef .tc main_v0) = _
  after_results
  rfl

/-- The mask widened to 32-bit words. -/
theorem found_mask (c : Dev nD) :
    V m c main_v1 = extui 32 (m ((c : Thread nD τ).loc main_arg2)) natLt_1_32 := by
  show StableHlo.after hostOps0 (fun b => m (c, b)) (Proc.devRef .tc main_v1) = _
  after_results

/-! ## The blocks read at an entry -/

/-- The x block at point t, entry (p, k): row p of the row tile, column k of the step. -/
theorem xblock_apply (c : Dev nD) (t : Fin cfg0.N) (p k : Fin 512) :
    (iblk m c 0 t : Vec F S512x512 .f32) (ix2 p k)
      = (V m c main_v0 : S8192x4096.Idx → Elt F .f32) (ix2 (rowOf (t.val / 8) p) ⟨(t.val % 8) * 512 + k.val, depth_lt t.val k⟩) := by
  unfold iblk
  rw [View.read_apply]
  show V m c main_v0 _ = V m c main_v0 _
  congr 1
  funext a
  apply Fin.ext
  match a with
  | ⟨0, _⟩ => show win0_0.index t 0 * 512 + 1 * p.val = (t.val / 8 / 4 % 16) * 512 + p.val; rw [(index_x t).1]; omega
  | ⟨1, _⟩ => show win0_0.index t 1 * 512 + 1 * k.val = (t.val % 8) * 512 + k.val; rw [(index_x t).2]; omega

/-- The weight block at point t, entry (q, k): row q of the column tile, column k of the step. -/
theorem wblock_apply (c : Dev nD) (t : Fin cfg0.N) (q : Fin 1024) (k : Fin 512) :
    (iblk m c 1 t : Vec F S1024x512 .f32) (ix2 q k)
      = (V m c main_arg1 : S4096x4096.Idx → Elt F .f32) (ix2 (colOf (t.val / 8) q) ⟨(t.val % 8) * 512 + k.val, depth_lt t.val k⟩) := by
  unfold iblk
  rw [View.read_apply]
  show V m c main_arg1 _ = V m c main_arg1 _
  congr 1
  funext a
  apply Fin.ext
  match a with
  | ⟨0, _⟩ => show win0_1.index t 0 * 1024 + 1 * q.val = (t.val / 8 % 4) * 1024 + q.val; rw [(index_w t).1]; omega
  | ⟨1, _⟩ => show win0_1.index t 1 * 512 + 1 * k.val = (t.val % 8) * 512 + k.val; rw [(index_w t).2]; omega

/-- The mask block at point t, entry (q, k): the same entry of the widened mask. -/
theorem mblock_apply (c : Dev nD) (t : Fin cfg0.N) (q : Fin 1024) (k : Fin 512) :
    (iblk m c 2 t : Vec F S1024x512 .i32) (ix2 q k)
      = (V m c main_v1 : S4096x4096.Idx → Elt F .i32) (ix2 (colOf (t.val / 8) q) ⟨(t.val % 8) * 512 + k.val, depth_lt t.val k⟩) := by
  unfold iblk
  rw [View.read_apply]
  show V m c main_v1 _ = V m c main_v1 _
  congr 1
  funext a
  apply Fin.ext
  match a with
  | ⟨0, _⟩ => show win0_2.index t 0 * 1024 + 1 * q.val = (t.val / 8 % 4) * 1024 + q.val; rw [(index_m t).1]; omega
  | ⟨1, _⟩ => show win0_2.index t 1 * 512 + 1 * k.val = (t.val % 8) * 512 + k.val; rw [(index_m t).2]; omega

end Cert.KernelIdeal.Tiles

end
-- ==== Proof.Acc.lean ====
/-
  The accumulator, step by step.

  After reduction step n % 8 of output tile u = n / 8 the scratch holds, at entry (p, q), the sum of the
  first n % 8 + 1 K-tiles of the contraction for output entry (row p of the row tile, column q of the
  column tile): the first step leaves 0 plus its tile, every later step adds its tile to what the step
  before left, and neither the row tile nor the column tile moves inside a reduction. At the last step
  (n % 8 = 7) the output block is a copy of the scratch, which then holds all eight tiles: the whole
  contraction.
-/
import proofs.«127321_j66005057405275_1_alg».proof.Proof.Pieces
import proofs.«127321_j66005057405275_1_alg».proof.Proof.Payload
import proofs.«127321_j66005057405275_1_alg».proof.Proof.Blocks
import proofs.«127321_j66005057405275_1_alg».proof.Proof.Spec

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.KernelIdeal.Steps Cert.KernelIdeal.Tiles Cert.MaskedLinear

variable (m : (ℓ : Loc nD τ sig) → Buf (Elt Ideal) ℓ)

/-- The three arrays the kernel reads, as the matrices of the specification: the flattened x, -/
abbrev xMat (c : Dev nD) : FVec Ideal SRows .f32 := V m c main_v0
/-- the weight, -/
abbrev wMat (c : Dev nD) : FVec Ideal SW .f32 := V m c main_arg1
/-- and the widened mask. -/
abbrev mMat (c : Dev nD) : IVec SW 32 := V m c main_v1

/-- The three input blocks at point t, at their literal shapes. -/
abbrev xBlk (c : Dev nD) (t : Fin cfg0.N) : Vec Ideal S512x512 .f32 := iblk m c 0 t
abbrev wBlk (c : Dev nD) (t : Fin cfg0.N) : Vec Ideal S1024x512 .f32 := iblk m c 1 t
abbrev mBlk (c : Dev nD) (t : Fin cfg0.N) : Vec Ideal S1024x512 .i32 := iblk m c 2 t

/-- The products a step adds at entry (p, q) are K-tile t % 8 of the contraction for that output entry. -/
theorem step_sum (c : Dev nD) (t : Fin cfg0.N) (p : Fin 512) (q : Fin 1024) :
    ∑ k : Fin 512, xBlk m c t (ix2 p k) * (wBlk m c t (ix2 q k) * gate32 (mBlk m c t (ix2 q k)))
      = tileDot (xMat m c) (wMat m c) (mMat m c) (rowOf (t.val / 8) p) (colOf (t.val / 8) q) (t.val % 8) := by
  unfold tileDot
  refine Finset.sum_congr rfl fun k _ => ?_
  unfold termN
  rw [dif_pos (depth_lt t.val k)]
  unfold term
  exact congrArg₂ (· * ·) (xblock_apply m c t p k)
    (congrArg₂ (· * ·) (wblock_apply m c t q k) (congrArg gate32 (mblock_apply m c t q k)))

/-- The first step of a reduction leaves 0 plus its tile: the first partial sum. -/
theorem first_step (c : Dev nD) (t : Fin cfg0.N) (h0 : t.val % 8 = 0) (p : Fin 512) (q : Fin 1024) :
    (outsAt0 m c t.val t.isLt).2 (ix2 p q)
      = partialDot (xMat m c) (wMat m c) (mMat m c) (rowOf (t.val / 8) p) (colOf (t.val / 8) q) (t.val % 8 + 1) := by
  have h1 : ¬t.val % 8 = 7 := by omega
  rw [outsAt0_A m c t h0 h1]
  dsimp only
  refine (congrFun (scratch_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
    (xBlk m c t) (wBlk m c t) (mBlk m c t)) (ix2 p q)).trans ?_
  rw [accumulate_apply, reset_apply, step_sum m c t p q, h0]
  exact (partialDot_one _ _ _ _ _).symm

/-- A later step adds its tile to what the step before left. -/
theorem later_step (c : Dev nD) (t : Fin cfg0.N) (h0 : ¬t.val % 8 = 0) (p : Fin 512) (q : Fin 1024)
    (ih : ∀ (p : Fin 512) (q : Fin 1024), (outsAt0 m c (t.val - 1) (Nat.lt_of_le_of_lt (Nat.sub_le _ _) t.isLt)).2 (ix2 p q)
      = partialDot (xMat m c) (wMat m c) (mMat m c) (rowOf ((t.val - 1) / 8) p) (colOf ((t.val - 1) / 8) q) ((t.val - 1) % 8 + 1)) :
    (outsAt0 m c t.val t.isLt).2 (ix2 p q)
      = partialDot (xMat m c) (wMat m c) (mMat m c) (rowOf (t.val / 8) p) (colOf (t.val / 8) q) (t.val % 8 + 1) := by
  have e1 : (t.val - 1) / 8 = t.val / 8 := by omega
  have e2 : (t.val - 1) % 8 + 1 = t.val % 8 := by omega
  by_cases h1 : t.val % 8 = 7
  · rw [outsAt0_C m c t h0 h1]
    dsimp only
    refine (congrFun (scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
      (xBlk m c t) (wBlk m c t) (mBlk m c t) (outsAt0 m c (t.val - 1) (Nat.lt_of_le_of_lt (Nat.sub_le _ _) t.isLt)).2) (ix2 p q)).trans ?_
    rw [accumulate_apply, ih p q, step_sum m c t p q, e1, e2]
    exact (partialDot_succ _ _ _ _ _ _).symm
  · rw [outsAt0_B m c t h0 h1]
    dsimp only
    refine (congrFun (scratch_mid (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h))
      (xBlk m c t) (wBlk m c t) (mBlk m c t) (outsAt0 m c (t.val - 1) (Nat.lt_of_le_of_lt (Nat.sub_le _ _) t.isLt)).2) (ix2 p q)).trans ?_
    rw [accumulate_apply, ih p q, step_sum m c t p q, e1, e2]
    exact (partialDot_succ _ _ _ _ _ _).symm

/-- The scratch after point n: the first n % 8 + 1 tiles of the contraction for its output tile. By induction on
    the point. -/
theorem scratch_eq (c : Dev nD) : ∀ (n : ℕ) (h : n < cfg0.N) (p : Fin 512) (q : Fin 1024),
    (outsAt0 m c n h).2 (ix2 p q)
      = partialDot (xMat m c) (wMat m c) (mMat m c) (rowOf (n / 8) p) (colOf (n / 8) q) (n % 8 + 1)
  | 0, h, p, q => first_step m c ⟨0, h⟩ rfl p q
  | n + 1, h, p, q => by
    by_cases h0 : (n + 1) % 8 = 0
    · exact first_step m c ⟨n + 1, h⟩ h0 p q
    · exact later_step m c ⟨n + 1, h⟩ h0 p q (fun p q => scratch_eq c n (Nat.lt_of_succ_lt h) p q)

/-- At the last step of a reduction the output block is a copy of the scratch. -/
theorem out_eq_scratch (c : Dev nD) (t : Fin cfg0.N) (h1 : t.val % 8 = 7) :
    (outsAt0 m c t.val t.isLt).1 = (outsAt0 m c t.val t.isLt).2 := by
  have h0 : ¬t.val % 8 = 0 := by omega
  rw [outsAt0_C m c t h0 h1]
  dsimp only
  exact (out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
      (xBlk m c t) (wBlk m c t) (mBlk m c t) (outsAt0 m c (t.val - 1) (Nat.lt_of_le_of_lt (Nat.sub_le _ _) t.isLt)).2).trans
    (scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
      (xBlk m c t) (wBlk m c t) (mBlk m c t) (outsAt0 m c (t.val - 1) (Nat.lt_of_le_of_lt (Nat.sub_le _ _) t.isLt)).2).symm

/-- So the block written back at the last step holds the whole contraction, entry by entry. -/
theorem out_block (c : Dev nD) (t : Fin cfg0.N) (h1 : t.val % 8 = 7) (p : Fin 512) (q : Fin 1024) :
    (outsAt0 m c t.val t.isLt).1 (ix2 p q)
      = matOut (xMat m c) (wMat m c) (mMat m c) (ix2 (rowOf (t.val / 8) p) (colOf (t.val / 8) q)) := by
  rw [out_eq_scratch m c t h1, scratch_eq m c t.val t.isLt p q, h1]
  exact partialDot_eight _ _ _ _ _

end Cert.KernelIdeal.Acc

end
-- ==== Proof.Final.lean ====
/-
  The kernel's result array.

  The output window's blocks are written back only at the last step of each reduction, and block t then
  holds the whole contraction for its tile: it is block t of the matrix  X · (w ∘ g₃₂(M))ᵀ  on the arrays
  the kernel found. The 64 output tiles cover the [8192, 4096] result, so that array ends holding this
  matrix; the host then folds its rows back to [4, 2048], and with X the flattened x and M the widened
  mask the result is the masked linear layer of the three arguments.
-/
import proofs.«127321_j66005057405275_1_alg».proof.Proof.Acc
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Tiles Cert.KernelIdeal.Acc Cert.MaskedLinear

variable (m : (ℓ : Loc nD τ sig) → Buf (Elt Ideal) ℓ) (ρ : Dev nD → PrngReg)

/-- What a writing-back point writes is its block of the matrix product on the arrays the kernel found. -/
theorem flushed_eq (c : Dev nD) (t : Fin cfg0.N) (hf : (cfg0.win 3).flush t = true) :
    (dats m 0 c).flushed 3 t
      = ((cfg0.win 3).blk t).view.read (Elt Ideal) (matOut (xMat m c) (wMat m c) (mMat m c)) := by
  have h7 : t.val % 8 = 7 := (flush0_3 t).mp hf
  have key : ((outsAt0 m c t.val t.isLt).1 : S512x1024.Idx → EReal)
      = fun y => matOut (xMat m c) (wMat m c) (mMat m c) (ix2 (rowOf (t.val / 8) (y 0)) (colOf (t.val / 8) (y 1))) := by
    funext y
    obtain ⟨p, q, rfl⟩ : ∃ (p : Fin 512) (q : Fin 1024), y = ix2 p q := ⟨y 0, y 1, eq_ix2 y⟩
    exact out_block m c t h7 p q
  show (cfg0.win 3).cut (grid0.coords t) ((dats m 0 c).after 3 t) = _
  rw [after0_3, key]
  funext y
  show matOut (xMat m c) (wMat m c) (mMat m c) (ix2 (rowOf (t.val / 8) (y 0)) (colOf (t.val / 8) (y 1)))
    = matOut (xMat m c) (wMat m c) (mMat m c) (((cfg0.win 3).blk t).view.emb y)
  congr 1
  funext a
  apply Fin.ext
  match a with
  | ⟨0, _⟩ => show (t.val / 8 / 4 % 16) * 512 + (y 0).val = win0_3.index t 0 * 512 + 1 * (y 0).val; rw [(index_o t).1]; omega
  | ⟨1, _⟩ => show (t.val / 8 % 4) * 1024 + (y 1).val = win0_3.index t 1 * 1024 + 1 * (y 1).val; rw [(index_o t).2]; omega

/-- An entry of the result is in point t's output block when each coordinate is in the block's range. -/
theorem mem_out_block (t : Fin cfg0.N) (i : S8192x4096.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v2).slice (win0_3.rect t)).set ↔ _
  rw [View.set_slice_whole, Rect.mem_set_unit]
  exact Iff.rfl

/-- Every entry (r, o) of the result lies in the block written back at the last step of output tile
    (r / 512, o / 1024). -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 512 := N_0
  have hlt : ((i 0).val / 512 * 4 + (i 1).val / 1024) * 8 + 7 < cfg0.N := by rw [hN]; omega
  refine ⟨⟨((i 0).val / 512 * 4 + (i 1).val / 1024) * 8 + 7, hlt⟩, (flush0_3 _).mpr ?_, ?_⟩
  · show (((i 0).val / 512 * 4 + (i 1).val / 1024) * 8 + 7) % 8 = 7
    omega
  · rw [mem_out_block]
    intro a
    match a with
    | ⟨0, _⟩ =>
      show win0_3.index ⟨((i 0).val / 512 * 4 + (i 1).val / 1024) * 8 + 7, hlt⟩ 0 * 512 ≤ (i 0).val
        ∧ (i 0).val < win0_3.index ⟨((i 0).val / 512 * 4 + (i 1).val / 1024) * 8 + 7, hlt⟩ 0 * 512 + 512
      rw [(index_o _).1]
      show ((((i 0).val / 512 * 4 + (i 1).val / 1024) * 8 + 7) / 8 / 4 % 16) * 512 ≤ (i 0).val
        ∧ (i 0).val < ((((i 0).val / 512 * 4 + (i 1).val / 1024) * 8 + 7) / 8 / 4 % 16) * 512 + 512
      omega
    | ⟨1, _⟩ =>
      show win0_3.index ⟨((i 0).val / 512 * 4 + (i 1).val / 1024) * 8 + 7, hlt⟩ 1 * 1024 ≤ (i 1).val
        ∧ (i 1).val < win0_3.index ⟨((i 0).val / 512 * 4 + (i 1).val / 1024) * 8 + 7, hlt⟩ 1 * 1024 + 1024
      rw [(index_o _).2]
      show ((((i 0).val / 512 * 4 + (i 1).val / 1024) * 8 + 7) / 8 % 4) * 1024 ≤ (i 1).val
        ∧ (i 1).val < ((((i 0).val / 512 * 4 + (i 1).val / 1024) * 8 + 7) / 8 % 4) * 1024 + 1024
      omega

/-- The [8192, 4096] result array after the kernel: the matrix product on the arrays the kernel found. -/
theorem final_out (c : Dev nD) : (dats m 0 c).arrAt 3 cfg0.N = matOut (xMat m c) (wMat m c) (mMat m c) :=
  (dats m 0 c).arrAt_eq_of_cover 3 _ (flushed_eq m c) covered

/-- The result buffer after the host has folded the rows back. -/
theorem tail_value (c : Dev nD) :
    Pipeline.afterTail₀ cfgs (dats m) 0 (V0 m) [hostOps1] c main_v3
      = shapeCast S4x2048x4096 (matOut (xMat m c) (wMat m c) (mMat m c)) shapeCasts_S8192x4096_S4x2048x4096 := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v2)
      = matOut (xMat m c) (wMat m c) (mMat m c) :=
    (Pipeline.withArrays_arr spec0 launch0.win.arr_inj c _ _ 3).trans (final_out m c)
  rw [hw]
  rfl

/-- With the flattened x and the widened mask put in, the result buffer holds the layer of the three arguments. -/
theorem result_value (c : Dev nD) :
    Pipeline.afterTail₀ cfgs (dats m) 0 (V0 m) [hostOps1] c main_v3
      = layer (m ((c : Thread nD τ).loc main_arg0)) (m ((c : Thread nD τ).loc main_arg1)) (m ((c : Thread nD τ).loc main_arg2)) := by
  rw [tail_value]
  show shapeCast S4x2048x4096 (matOut (V m c main_v0) (V m c main_arg1) (V m c main_v1)) shapeCasts_S8192x4096_S4x2048x4096 = _
  rw [found_x m c, V_main_arg1 m c, found_mask m c]
  exact fold_matOut _ _ _ _ _

/-- The kernel's run, read: the result buffer at the layer of the arguments, the arguments unchanged. -/
theorem run : θ_run defs (onTc (τ := τ) (main (F := Ideal))) ⟨m, fun _ => 0, ρ⟩ fun r => ∀ c : Dev nD,
      r.2.mem ((c : Thread nD τ).loc main_v3)
        = layer (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v3 (Pipeline.mem_restRefs_of main_v3 (by decide) (by decide))).trans (result_value m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Result

end
-- ==== Proof.RefSide.lean ====
/-
  The reference computes the layer.

  The reference converts the one-bit mask to 0/1 floats, multiplies the weight by it entry by entry, and
  contracts x's last axis with the masked weight's last axis. Entry (b, s, o) of that contraction is the sum
  over k of x[b, s, k] · (w[o, k] · g(msk[o, k])): the layer, term for term.
-/
import proofs.«127321_j66005057405275_1_alg».proof.Proof.Gen.ReferenceIdeal.Read
import proofs.«127321_j66005057405275_1_alg».proof.Proof.Spec

noncomputable section

open Idealize.ShloMosaic Idealize.ShloMosaic.ValueIdx

namespace Cert.ReferenceIdeal.Layer

open Cert.ReferenceIdeal Cert.ReferenceIdeal.Gen Cert.ReferenceIdeal.Read Cert.MaskedLinear

/-- The reference's result term is the layer of its three arguments. -/
theorem reference_eq (x : FVec Ideal S4x2048x4096 .f32) (w : FVec Ideal S4096x4096 .f32) (msk : IVec S4096x4096 1) :
    Host.dotGeneral dot_S4x2048x4096_S4096x4096_S4x2048x4096_2_1_01_0_n_n none x (mulf w (uitofp .f32 msk))
      = layer x w msk := by
  rw [val_main_v2_eq]
  funext i
  rw [val_main_v2_apply]
  unfold layer
  refine Finset.sum_congr rfl fun k _ => ?_
  have el : lidx_main_v2 i k = ix3 (i 0) (i 1) k := funext fun a => by
    match a with
    | ⟨0, _⟩ => rfl
    | ⟨1, _⟩ => rfl
    | ⟨2, _⟩ => rfl
  have er : ridx_main_v2 i k = ix2 (i 2) k := funext fun a => by
    match a with
    | ⟨0, _⟩ => rfl
    | ⟨1, _⟩ => rfl
  rw [el, er]
  rfl

end Cert.ReferenceIdeal.Layer

end
-- ==== Proof.lean ====
/-
  The masked linear layer: a K-tiled kernel against the one-line einsum.

  The kernel flattens x to [8192, 4096], widens the one-bit mask to 32-bit words, and runs a 16 × 4 × 8 grid:
  output tile (i, j) of 512 × 1024 entries is built over eight steps, each adding the product of a
  [512, 512] block of x with the transposed [1024, 512] block of the masked weight (the weight times the
  0/1 value of the mask, entry by entry) onto an accumulator that the first step starts from zero; the
  last step copies the accumulator out, and the host folds the rows back to [4, 2048]. The reference
  multiplies the weight by the mask and contracts x with it in one einsum.

  On the extended reals both are  out[b, s, o] = ∑ k, x[b, s, k] · (w[o, k] · g(msk[o, k])):  the narrowing
  to bf16 is the identity, "mask word ≠ 0, widened, read signed" and "mask bit read unsigned" are the same
  0 or 1, and the eight partial sums from a zero start are the whole sum because extended-real addition is
  commutative and associative with unit 0. No finiteness is used.

  The three frames are the generated ones (the reference's is its run with the result dropped), the
  idealization rewrote nothing, and the value claim joins the kernel's run (Final.lean) to the
  reference's run (RefSide.lean) at the one function `Cert.MaskedLinear.layer` (Spec.lean).
-/
import proofs.«127321_j66005057405275_1_alg».proof.Defs
import proofs.«127321_j66005057405275_1_alg».proof.Proof.Gen.Kernel
import proofs.«127321_j66005057405275_1_alg».proof.Proof.Gen.Kernel.Skeleton
import proofs.«127321_j66005057405275_1_alg».proof.Proof.Gen.Kernel.Launch
import proofs.«127321_j66005057405275_1_alg».proof.Proof.Gen.Kernel.Points
import proofs.«127321_j66005057405275_1_alg».proof.Proof.Gen.Kernel.Frame
import proofs.«127321_j66005057405275_1_alg».proof.Proof.Gen.KernelIdeal
import proofs.«127321_j66005057405275_1_alg».proof.Proof.Gen.KernelIdeal.Skeleton
import proofs.«127321_j66005057405275_1_alg».proof.Proof.Gen.KernelIdeal.Launch
import proofs.«127321_j66005057405275_1_alg».proof.Proof.Gen.KernelIdeal.Points
import proofs.«127321_j66005057405275_1_alg».proof.Proof.Gen.KernelIdeal.Frame
import proofs.«127321_j66005057405275_1_alg».proof.Proof.Gen.ReferenceIdeal
import proofs.«127321_j66005057405275_1_alg».proof.Proof.Gen.Pre_finite_inputs
import proofs.«127321_j66005057405275_1_alg».proof.Proof.Gen.ReferenceIdeal.Run
import proofs.«127321_j66005057405275_1_alg».proof.Proof.Gen.ReferenceIdeal.Read
import proofs.«127321_j66005057405275_1_alg».proof.Proof.Final
import proofs.«127321_j66005057405275_1_alg».proof.Proof.RefSide
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments alone. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on x, the weight and the mask, both programs end with the layer of those three
    arrays in their result buffers. -/
theorem algebraic : Cert.algebraic_KernelIdeal_ReferenceIdeal := by
  intro m ρ m' ρ' _ hagree
  refine ⟨fun c => Cert.MaskedLinear.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.Layer.reference_eq _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
